-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x128 : Shape := ⟨2, ![4096, 128]⟩
abbrev S128 : Shape := ⟨1, ![128]⟩
abbrev S128x512 : Shape := ⟨2, ![128, 512]⟩
abbrev S512 : Shape := ⟨1, ![512]⟩
abbrev S64x64x32 : Shape := ⟨3, ![64, 64, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S64x64x32 : S_.BroadcastsInDim S64x64x32 (![] : Fin 0 → Fin S64x64x32.rank)
  reducesTo_S64x64x32_S_d0_1_2 : S64x64x32.ReducesTo [0, 1, 2] S_

variable [Facts]

def fn_part1 {F : FTy → Type} [FloatOps F] (main_arg4 : FVec F S512 .f32) (main_arg5 : FVec F S64x64x32 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S64x64x32 .f32 := Host.absf main_arg5
  let main_cst_8 : FVec F S_ .f32 := constant S_ .f32 0x7F800000#32
  let main_v25 : FVec F S64x64x32 .f32 := broadcastInDim S64x64x32 ![] bcast_S_S64x64x32 main_cst_8
  let main_v26 : IVec S64x64x32 1 := cmpf .olt main_v24 main_v25
  let main_c_9 : IVec S_ 1 := constantI S_ 1 1#1
  let main_v27 : IVec S_ 1 := (fun x v => Host.reduce IntOp.andi x v reducesTo_S64x64x32_S_d0_1_2 h_S_) main_v26 main_c_9
  let main_v28 : IVec S_ 1 := andi main_v23 main_v27
  main_v28

def fn {F : FTy → Type} [FloatOps F] (main_arg0 : FVec F S8192x4096 .f32) (main_arg1 : FVec F S4096x128 .f32) (main_arg2 : FVec F S128 .f32) (main_arg3 : FVec F S128x512 .f32) (main_arg4 : FVec F S512 .f32) (main_arg5 : FVec F S64x64x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S8192x4096 : Shape := ⟨2, ![8192, 4096]⟩
abbrev S4096x128 : Shape := ⟨2, ![4096, 128]⟩
abbrev S128 : Shape := ⟨1, ![128]⟩
abbrev S128x512 : Shape := ⟨2, ![128, 512]⟩
abbrev S512 : Shape := ⟨1, ![512]⟩
abbrev S64x64x32 : Shape := ⟨3, ![64, 64, 32]⟩
abbrev S4096x32 : Shape := ⟨2, ![4096, 32]⟩
abbrev S32x4096 : Shape := ⟨2, ![32, 4096]⟩
abbrev S8192x512 : Shape := ⟨2, ![8192, 512]⟩
abbrev S8192x32 : Shape := ⟨2, ![8192, 32]⟩
abbrev S512x4096 : Shape := ⟨2, ![512, 4096]⟩
abbrev S512x512 : Shape := ⟨2, ![512, 512]⟩
abbrev S512x32 : Shape := ⟨2, ![512, 32]⟩
abbrev S512x128 : Shape := ⟨2, ![512, 128]⟩
abbrev S1x128 : Shape := ⟨2, ![1, 128]⟩
abbrev S1x512 : Shape := ⟨2, ![1, 512]⟩

abbrev nBuf : Space → Nat
  | .hbm => 14
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S64x64x32, .f32⟩
  | .hbm, ⟨6, _⟩ => ⟨S4096x128, .bf16⟩
  | .hbm, ⟨7, _⟩ => ⟨S128x512, .bf16⟩
  | .hbm, ⟨8, _⟩ => ⟨S4096x32, .f32⟩
  | .hbm, ⟨9, _⟩ => ⟨S32x4096, .f32⟩
  | .hbm, ⟨10, _⟩ => ⟨S32x4096, .bf16⟩
  | .hbm, ⟨11, _⟩ => ⟨S8192x512, .f32⟩
  | .hbm, ⟨12, _⟩ => ⟨S8192x32, .f32⟩
  | .hbm, ⟨13, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S128, .f32⟩
  | .local _ .vmem, ⟨4, _⟩ => ⟨S128x512, .bf16⟩
  | .local _ .vmem, ⟨5, _⟩ => ⟨S512, .f32⟩
  | .local _ .vmem, ⟨6, _⟩ => ⟨S512x512, .f32⟩
  | .local _ .vmem, ⟨7, _⟩ => ⟨S512x512, .f32⟩
  | .local _ .vmem, ⟨8, _⟩ => ⟨S512x32, .f32⟩
  | .local _ .vmem, ⟨9, _⟩ => ⟨S512x32, .f32⟩
  | .local _ .vmem, ⟨10, _⟩ => ⟨S512x32, .f32⟩
  | .local _ .vmem, ⟨11, _⟩ => ⟨S512x32, .f32⟩
  | .local _ .vmem, ⟨12, _⟩ => ⟨S32x4096, .bf16⟩
  | .local _ .vmem, ⟨13, _⟩ => ⟨S512x4096, .f32⟩
  | .local _ .vmem, ⟨14, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S64x64x32_S4096x32 : S64x64x32.ShapeCasts S4096x32
  transposes_S4096x32_S32x4096_1_0 : S4096x32.Transposes [1, 0] S32x4096
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  slices_S512x512_o0_0_S512x32 : S512x512.Slices ![0, 0] S512x32
  slices_S512x512_o0_32_S512x32 : S512x512.Slices ![0, 32] S512x32
  slices_S512x512_o0_64_S512x32 : S512x512.Slices ![0, 64] S512x32
  slices_S512x512_o0_96_S512x32 : S512x512.Slices ![0, 96] S512x32
  slices_S512x512_o0_128_S512x32 : S512x512.Slices ![0, 128] S512x32
  slices_S512x512_o0_160_S512x32 : S512x512.Slices ![0, 160] S512x32
  slices_S512x512_o0_192_S512x32 : S512x512.Slices ![0, 192] S512x32
  slices_S512x512_o0_224_S512x32 : S512x512.Slices ![0, 224] S512x32
  slices_S512x512_o0_256_S512x32 : S512x512.Slices ![0, 256] S512x32
  slices_S512x512_o0_288_S512x32 : S512x512.Slices ![0, 288] S512x32
  slices_S512x512_o0_320_S512x32 : S512x512.Slices ![0, 320] S512x32
  slices_S512x512_o0_352_S512x32 : S512x512.Slices ![0, 352] S512x32
  slices_S512x512_o0_384_S512x32 : S512x512.Slices ![0, 384] S512x32
  slices_S512x512_o0_416_S512x32 : S512x512.Slices ![0, 416] S512x32
  slices_S512x512_o0_448_S512x32 : S512x512.Slices ![0, 448] S512x32
  slices_S512x512_o0_480_S512x32 : S512x512.Slices ![0, 480] S512x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  dot_S512x4096_S4096x128_S512x128_1_0_0_1_n_n_wf : DotDims.WF S512x4096 S4096x128 S512x128 [1] [0] [0] [1] [] []
  dot_S512x128_S128x512_S512x512_1_0_0_1_n_n_wf : DotDims.WF S512x128 S128x512 S512x512 [1] [0] [0] [1] [] []
  dot_S512x32_S32x4096_S512x4096_1_0_0_1_n_n_wf : DotDims.WF S512x32 S32x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S8192x32.size a
  hwx0_6 : ∀ i : grid0.Coords, EltTy.bits .f32 = 32 ∨ (Rect.block (s := S8192x32) S512x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x32.size a ≤ S8192x32.size a
  hwx1_0 : ∀ i : grid1.Coords, EltTy.bits .f32 = 32 ∨ (Rect.block (s := S8192x32) S512x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .bf16 = 32 ∨ (Rect.block (s := S32x4096) S32x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S8192x4096.size a
  hwx1_2 : ∀ i : grid1.Coords, EltTy.bits .f32 = 32 ∨ (Rect.block (s := S8192x4096) S512x4096.size (cc1_transform_2 i) (hinb1_2 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S512x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_1) S512x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x128 : Shape := ⟨2, ![4096, 128]⟩
abbrev S128 : Shape := ⟨1, ![128]⟩
abbrev S128x512 : Shape := ⟨2, ![128, 512]⟩
abbrev S512 : Shape := ⟨1, ![512]⟩
abbrev S64x64x32 : Shape := ⟨3, ![64, 64, 32]⟩
abbrev S8192x128 : Shape := ⟨2, ![8192, 128]⟩
abbrev S1x128 : Shape := ⟨2, ![1, 128]⟩
abbrev S_ : Shape := ⟨0, ![]⟩
abbrev S8192x512 : Shape := ⟨2, ![8192, 512]⟩
abbrev S1x512 : Shape := ⟨2, ![1, 512]⟩
abbrev S8192x16x32 : Shape := ⟨3, ![8192, 16, 32]⟩
abbrev S8192x32 : Shape := ⟨2, ![8192, 32]⟩
abbrev S8192x64x64 : Shape := ⟨3, ![8192, 64, 64]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128, .f32⟩
  | .hbm, ⟨3, _⟩ => ⟨S128x512, .f32⟩
  | .hbm, ⟨4, _⟩ => ⟨S512, .f32⟩
  | .hbm, ⟨5, _⟩ => ⟨S64x64x32, .f32⟩
  | .hbm, ⟨6, _⟩ => ⟨S8192x128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192x128, .f32⟩
  | .hbm, ⟨12, _⟩ => ⟨S8192x128, .f32⟩
  | .hbm, ⟨13, _⟩ => ⟨S8192x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S8192x16x32, .f32⟩
  | .hbm, ⟨18, _⟩ => ⟨S_, .f32⟩
  | .hbm, ⟨19, _⟩ => ⟨S8192x32, .f32⟩
  | .hbm, ⟨20, _⟩ => ⟨S8192x64x64, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  shapeCasts_S8192x512_S8192x16x32 : S8192x512.ShapeCasts S8192x16x32
  reducesTo_S8192x16x32_S8192x32_d1 : S8192x16x32.ReducesTo [1] S8192x32
  h_S_ : 0 < S_.numel
  shapeCasts_S8192x64x64_S8192x4096 : S8192x64x64.ShapeCasts S8192x4096
  dot_S8192x4096_S4096x128_S8192x128_1_0_0_1_n_n_wf : DotDims.WF S8192x4096 S4096x128 S8192x128 [1] [0] [0] [1] [] []
  dot_S8192x128_S128x512_S8192x512_1_0_0_1_n_n_wf : DotDims.WF S8192x128 S128x512 S8192x512 [1] [0] [0] [1] [] []
  dot_S8192x32_S64x64x32_S8192x64x64_1_2_0_01_n_n_wf : DotDims.WF S8192x32 S64x64x32 S8192x64x64 [1] [2] [0] [0, 1] [] []

variable [Facts₀]

def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x32_S64x64x32_S8192x64x64_1_2_0_01_n_n : DotDims S8192x32 S64x64x32 S8192x64x64 where
  lhsContracting := [1]
  rhsContracting := [2]
  lhsNonContracting := [0]
  rhsNonContracting := [0, 1]
  lhsBatch := []
  rhsBatch := []
  wf := dot_S8192x32_S64x64x32_S8192x64x64_1_2_0_01_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«115263_j44513041056231_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«115263_j44513041056231_1_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.FactorCoder.lean ====
/-
  A factorised autoencoder, as plain functions of matrices of extended reals.

  The encoder is two dense layers, the first clamped at zero from below: the latent code of a row of `x` is
  `max (x · w₁ + b₁) 0 · w₂ + b₂`, a row of 512 numbers read as 16 factors of 32 latents each, one factor after
  another (`lane`). The factors are summed latent by latent (`factorSum`: at latent `l` the sum over the 16 factors
  `n` of the code's column `32 n + l`, taken from the zero word a program starts a sum from). The decoder is a
  stack of 64 matrices of 64 rows and 32 columns; output column `j` of the reconstruction belongs to matrix
  `j / 64` and its row `j % 64`, and is the product of the summed latents with that row (`recon`): the same
  number whether the stack is first laid out as one table of 32 rows and 4096 columns (`stackTable`) and
  multiplied once, or each matrix is multiplied by itself and the 64 results are set side by side.

  Everything is stated entry by entry, so it reads the same on a block of rows and on the whole matrix: an entry
  of each of the three depends on its left operand only through the entry's row (`code_congr`, `factorSum_congr`,
  `recon_congr`).
-/
import Idealize.ShloMosaic.Lib.Pipeline.Value
import Idealize.ShloMosaic.Lib.ValueIdx
import Idealize.ShloMosaic.Lib.ValueLayout
import Idealize.ShloMosaic.PureOps.Ideal.Laws
import proofs.«115263_j44513041056231_1_alg».proof.Proof.LibBiasLayer

noncomputable section

namespace Cert.FactorCoder

open Idealize.ShloMosaic Idealize.ShloMosaic.ValueIdx Cert.DenseLayer Cert.BiasLayer

variable {a : ℕ}

/-! ## The latent code -/

/-- The latent code: the clamped first layer fed to the second, `max (x · w₁ + b₁) 0 · w₂ + b₂`. -/
def code (x : Mat a 4096) (w₁ : Mat 4096 128) (b₁ : Row 128) (w₂ : Mat 128 512) (b₂ : Row 512) : Mat a 512 :=
  affine (reluAffine x w₁ b₁) w₂ b₂

/-- A row of the code depends on the input only through that row. -/
theorem code_congr {a' : ℕ} (x : Mat a 4096) (x' : Mat a' 4096) (w₁ : Mat 4096 128) (b₁ : Row 128) (w₂ : Mat 128 512)
    (b₂ : Row 512) (r : Fin a) (r' : Fin a') (h : ∀ k, x (ix2 r k) = x' (ix2 r' k)) (q : Fin 512) :
    code x w₁ b₁ w₂ b₂ (ix2 r q) = code x' w₁ b₁ w₂ b₂ (ix2 r' q) :=
  affine_congr _ _ w₂ b₂ r r' (fun k => reluAffine_congr x x' w₁ b₁ r r' h k) q

/-! ## The sum over the factors -/

/-- Column of latent `l` of factor `n` among the 512 code columns. -/
def lane (n : Fin 16) (l : Fin 32) : Fin 512 := ⟨n.val * 32 + l.val, by omega⟩

/-- The 16 factors summed latent by latent, from the zero word. -/
def factorSum (z : Mat a 512) : Mat a 32 :=
  fun i => Ideal.ofBits .f32 0x00000000#32 + ∑ n : Fin 16, z (ix2 (i 0) (lane n (i 1)))

theorem factorSum_apply (z : Mat a 512) (r : Fin a) (l : Fin 32) :
    factorSum z (ix2 r l) = Ideal.ofBits .f32 0x00000000#32 + ∑ n : Fin 16, z (ix2 r (lane n l)) := rfl

/-- A row of the sums depends on the code only through that row. -/
theorem factorSum_congr {a' : ℕ} (z : Mat a 512) (z' : Mat a' 512) (r : Fin a) (r' : Fin a')
    (h : ∀ q, z (ix2 r q) = z' (ix2 r' q)) (l : Fin 32) : factorSum z (ix2 r l) = factorSum z' (ix2 r' l) := by
  rw [factorSum_apply, factorSum_apply]
  exact congrArg (_ + ·) (Finset.sum_congr rfl fun n _ => h (lane n l))

/-- A sum started from `c` and taken one term after another, sixteen terms, is `c` plus their sum. -/
theorem fold_sixteen (c : EReal) (g : Fin 16 → EReal) :
    c + g 0 + g 1 + g 2 + g 3 + g 4 + g 5 + g 6 + g 7 + g 8 + g 9 + g 10 + g 11 + g 12 + g 13 + g 14 + g 15
      = c + ∑ n : Fin 16, g n := by
  simp only [Fin.sum_univ_succ, Fin.sum_univ_zero, add_zero, add_assoc]
  rfl

/-! ## The reconstruction -/

/-- A stack of 64 decoder matrices of 64 rows and 32 columns. -/
abbrev Stack : Type := (⟨3, ![64, 64, 32]⟩ : Shape).Idx → EReal

/-- The decoder an output column belongs to, and its row inside that decoder. -/
def group (j : Fin 4096) : Fin 64 := ⟨j.val / 64, by omega⟩
def member (j : Fin 4096) : Fin 64 := ⟨j.val % 64, by omega⟩

/-- The stack laid out as one table: column `j` holds row `j % 64` of decoder `j / 64`. -/
def stackTable (dec : Stack) : Mat 32 4096 :=
  fun i => dec (ix3 (group (i 1)) (member (i 1)) (i 0))

theorem stackTable_apply (dec : Stack) (l : Fin 32) (j : Fin 4096) :
    stackTable dec (ix2 l j) = dec (ix3 (group j) (member j) l) := rfl

/-- The reconstruction: the summed latents times the laid-out stack. -/
def recon (zs : Mat a 32) (dec : Stack) : Mat a 4096 :=
  fun i => prodRow zs (stackTable dec) (i 0) (i 1)

theorem recon_apply (zs : Mat a 32) (dec : Stack) (r : Fin a) (j : Fin 4096) :
    recon zs dec (ix2 r j) = ∑ l : Fin 32, zs (ix2 r l) * dec (ix3 (group j) (member j) l) := rfl

/-- A row of the reconstruction depends on the summed latents only through that row. -/
theorem recon_congr {a' : ℕ} (zs : Mat a 32) (zs' : Mat a' 32) (dec : Stack) (r : Fin a) (r' : Fin a')
    (h : ∀ l, zs (ix2 r l) = zs' (ix2 r' l)) (j : Fin 4096) : recon zs dec (ix2 r j) = recon zs' dec (ix2 r' j) :=
  congrFun (prodRow_congr zs zs' (stackTable dec) r r' h) j

/-- The whole map: the code, and the reconstruction from its summed factors. -/
def reconOf (x : Mat a 4096) (w₁ : Mat 4096 128) (b₁ : Row 128) (w₂ : Mat 128 512) (b₂ : Row 512) (dec : Stack) :
    Mat a 4096 :=
  recon (factorSum (code x w₁ b₁ w₂ b₂)) dec

end Cert.FactorCoder

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«115263_j44513041056231_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.BodyValue.lean ====
/-
  What the two kernel bodies compute on their blocks, entry by entry, at the ideal values.

  The first body holds a block of 512 input rows `x` and the whole of the two weight matrices and bias rows. What it
  stores in its first output block is the latent code of those rows (`encoded_apply`): the two matrix products into
  zero accumulators, the biases laid over the rows, the maximum against zero in between; changes of float format
  are the identity at the ideal values. What it stores in its second output block is the code's 16 column groups of
  32 added one after another onto a zero block (`summed_apply`): at `(p, l)` the zero word plus the sum over the
  groups `n` of the code at `(p, 32 n + l)`. The second body holds 512 rows of such sums and a whole table of 32 rows;
  it stores their product (`rebuilt_apply`).
-/
import proofs.«115263_j44513041056231_1_alg».proof.Proof.Gen.KernelIdeal.Skeleton
import proofs.«115263_j44513041056231_1_alg».proof.Proof.FactorCoder
import proofs.«115263_j44513041056231_1_alg».proof.Proof.LibPlainDot

noncomputable section

namespace Cert.KernelIdeal.BodyValue

open Cert.KernelIdeal Cert.KernelIdeal.Gen Idealize.ShloMosaic Idealize.ShloMosaic.ValueIdx
open Cert.DenseLayer Cert.BiasLayer Cert.FactorCoder

/-- The three products' dimension numbers are those of plain products. -/
theorem plain_first : PlainDot dot_S512x4096_S4096x128_S512x128_1_0_0_1_n_n := plainDot_of_axes _ rfl rfl rfl rfl rfl rfl
theorem plain_second : PlainDot dot_S512x128_S128x512_S512x512_1_0_0_1_n_n := plainDot_of_axes _ rfl rfl rfl rfl rfl rfl
theorem plain_table : PlainDot dot_S512x32_S32x4096_S512x4096_1_0_0_1_n_n := plainDot_of_axes _ rfl rfl rfl rfl rfl rfl

/-- The first body's first store, at `(p, q)`: the latent code of the block's row `p` at column `q`. -/
theorem encoded_apply (x : Vec Ideal S512x4096 .f32) (w₁ : Vec Ideal S4096x128 .bf16) (b₁ : Vec Ideal S128 .f32)
    (w₂ : Vec Ideal S128x512 .bf16) (b₂ : Vec Ideal S512 .f32) (p q : Fin 512) :
    k0_pay2 (F := Ideal) x w₁ b₁ w₂ b₂ (ix2 p q) = code x w₁ b₁ w₂ b₂ (ix2 p q) := by
  have e₁ : shapeCast S4096x128 w₁ shapeCasts_S4096x128_S4096x128 = w₁ := shapeCast_self w₁ _
  have e₂ : shapeCast S128x512 w₂ shapeCasts_S128x512_S128x512 = w₂ := shapeCast_self w₂ _
  unfold k0_pay2 code
  refine (vector_affine_apply (φ₁ := .bf16) (φ₂ := .bf16) _ _ b₂ plain_second none shapeCasts_S512_S1x512
    broadcasts_S1x512_S512x512 p q).trans ?_
  rw [e₂]
  refine affine_congr _ _ w₂ b₂ p p (fun k => ?_) q
  refine (vector_reluAffine_apply (φ₁ := .bf16) (φ₂ := .bf16) _ _ b₁ plain_first none shapeCasts_S128_S1x128
    broadcasts_S1x128_S512x128 p k).trans ?_
  rw [e₁]
  rfl

/-- A slice of 32 columns of the code block starting at column `o = 32 n`, read at `(p, l)`, is the code at
    `(p, lane n l)`. -/
theorem group_apply (z : Vec Ideal S512x512 .f32) (n : Fin 16) (o : ℕ) (ho : o = n.val * 32)
    (h : S512x512.Slices ![0, o] S512x32) (p : Fin 512) (l : Fin 32) :
    extractStridedSlice S512x32 ![0, o] z h (ix2 p l) = z (ix2 p (lane n l)) :=
  extractStridedSlice_apply _ z h (ix2 p l) (ix2 p (lane n l)) fun ax => by
    match ax with
    | ⟨0, _⟩ => show p.val = 0 + p.val; omega
    | ⟨1, _⟩ => show n.val * 32 + l.val = o + l.val; omega

/-- The first body's second store, at `(p, l)`: the zero word plus the sum over the 16 groups of the stored code. -/
theorem summed_apply (x : Vec Ideal S512x4096 .f32) (w₁ : Vec Ideal S4096x128 .bf16) (b₁ : Vec Ideal S128 .f32)
    (w₂ : Vec Ideal S128x512 .bf16) (b₂ : Vec Ideal S512 .f32) (p : Fin 512) (l : Fin 32) :
    k0_pay1 (F := Ideal) (k0_pay2 x w₁ b₁ w₂ b₂) (k0_pay3 x w₁ b₁ w₂ b₂) (k0_pay4 x w₁ b₁ w₂ b₂) (ix2 p l)
      = factorSum (k0_pay2 (F := Ideal) x w₁ b₁ w₂ b₂) (ix2 p l) := by
  rw [factorSum_apply, ← fold_sixteen]
  unfold k0_pay1 k0_pay3 k0_pay4
  dsimp only
  generalize k0_pay2 (F := Ideal) x w₁ b₁ w₂ b₂ = z
  show Ideal.ofBits .f32 0x00000000#32
      + extractStridedSlice S512x32 ![0, 0] z _ (ix2 p l) + extractStridedSlice S512x32 ![0, 32] z _ (ix2 p l)
      + extractStridedSlice S512x32 ![0, 64] z _ (ix2 p l) + extractStridedSlice S512x32 ![0, 96] z _ (ix2 p l)
      + extractStridedSlice S512x32 ![0, 128] z _ (ix2 p l) + extractStridedSlice S512x32 ![0, 160] z _ (ix2 p l)
      + extractStridedSlice S512x32 ![0, 192] z _ (ix2 p l) + extractStridedSlice S512x32 ![0, 224] z _ (ix2 p l)
      + extractStridedSlice S512x32 ![0, 256] z _ (ix2 p l) + extractStridedSlice S512x32 ![0, 288] z _ (ix2 p l)
      + extractStridedSlice S512x32 ![0, 320] z _ (ix2 p l) + extractStridedSlice S512x32 ![0, 352] z _ (ix2 p l)
      + extractStridedSlice S512x32 ![0, 384] z _ (ix2 p l) + extractStridedSlice S512x32 ![0, 416] z _ (ix2 p l)
      + extractStridedSlice S512x32 ![0, 448] z _ (ix2 p l) + extractStridedSlice S512x32 ![0, 480] z _ (ix2 p l) = _
  rw [group_apply z 0 0 rfl, group_apply z 1 32 rfl, group_apply z 2 64 rfl, group_apply z 3 96 rfl,
    group_apply z 4 128 rfl, group_apply z 5 160 rfl, group_apply z 6 192 rfl, group_apply z 7 224 rfl,
    group_apply z 8 256 rfl, group_apply z 9 288 rfl, group_apply z 10 320 rfl, group_apply z 11 352 rfl,
    group_apply z 12 384 rfl, group_apply z 13 416 rfl, group_apply z 14 448 rfl, group_apply z 15 480 rfl]

/-- The second body's store, at `(p, j)`: row `p` of the block of sums times column `j` of the table. -/
theorem rebuilt_apply (zs : Vec Ideal S512x32 .f32) (tbl : Vec Ideal S32x4096 .bf16) (p : Fin 512) (j : Fin 4096) :
    k1_pay1 (F := Ideal) zs tbl (ix2 p j) = prodRow zs tbl p j := by
  have e₁ : shapeCast S512x32 zs shapeCasts_S512x32_S512x32 = zs := shapeCast_self zs _
  have e₂ : shapeCast S32x4096 tbl shapeCasts_S32x4096_S32x4096 = tbl := shapeCast_self tbl _
  unfold k1_pay1
  refine (matmul_zero_apply (φ₁ := .bf16) (φ₂ := .bf16) plain_table none _ _ (ix2 p j)).trans ?_
  rw [e₁, e₂]
  rfl

end Cert.KernelIdeal.BodyValue

end
-- ==== Proof.RegionValue.lean ====
/-
  What each of the two pipelined regions leaves in its output arrays, as one function of the arrays it is entered
  with, at the ideal values.

  Both regions walk 16 grid points; point `t` works on rows `512 t … 512 t + 511`: it is handed block `t` of its row-blocked
  input (the rows `512 t + p`: `rows_apply`), the whole of every other input (one block, index 0), and writes block `t` of
  each output. The body's stores, read entry by entry, are the code of the block's rows, the sums of its factors, and
  the product with the table; each entry depends on the row-blocked input only through its own row, so what point
  `t` writes back is block `t` of the whole-array function (`written_code`, `written_sums`, `written_recon`). The 16 blocks
  tile the rows (row `r` is in block `r / 512`: the covers), so the array ends holding that function everywhere
  (`final_code`, `final_sums`, `final_recon`).
-/
import proofs.«115263_j44513041056231_1_alg».proof.Proof.Gen.KernelIdeal.Frame
import proofs.«115263_j44513041056231_1_alg».proof.Proof.BodyValue
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.DenseLayer Cert.BiasLayer Cert.FactorCoder Cert.KernelIdeal.BodyValue

variable (V : (c : Dev nD) → (b : Ref sig .tc) → Buf (Elt Ideal) ((c : Thread nD τ).loc b))

theorem zero_two : (![0, 0] : Fin 2 → Nat) = fun _ => 0 := funext fun a => by fin_cases a <;> rfl
theorem zero_one : (![0] : Fin 1 → Nat) = fun _ => 0 := funext fun a => by fin_cases a <;> rfl

/-- Row `p` of the block of 512 rows that point `t` works on. -/
def rowAt (t : ℕ) (ht : t < 16) (p : Fin 512) : Fin 8192 := ⟨t * 512 + p.val, by have := p.isLt; omega⟩

/-! ## The first region: the code and the sums of its factors -/

/-- The arrays the first region is entered with, at their literal types. -/
abbrev inX (c : Dev nD) : Mat 8192 4096 := V c main_arg0
abbrev inW₁ (c : Dev nD) : Mat 4096 128 := V c main_v0
abbrev inB₁ (c : Dev nD) : Row 128 := V c main_arg2
abbrev inW₂ (c : Dev nD) : Mat 128 512 := V c main_v1
abbrev inB₂ (c : Dev nD) : Row 512 := V c main_arg4

/-- The code of the whole input as the region finds it, and the sums of its factors. -/
def codeOf (c : Dev nD) : Mat 8192 512 := code (inX V c) (inW₁ V c) (inB₁ V c) (inW₂ V c) (inB₂ V c)
def sumsOf (c : Dev nD) : Mat 8192 32 := factorSum (codeOf V c)

/-- The printed index maps over the 16 points: the row-blocked windows are at block `t`, the others at block 0. -/
theorem maps_first : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt_first (t : Fin cfg0.N) : t.val < 16 := N_0 ▸ t.isLt

/-- The block of input rows at point `t`, at `(p, k)`, is the input at row `512 t + p`. -/
theorem rows_apply (c : Dev nD) (t : Fin cfg0.N) (p : Fin 512) (k : Fin 4096) :
    (iblk0 V c 0 t : Mat 512 4096) (ix2 p k) = inX V c (ix2 (rowAt t.val (lt_first t) p) k) := by
  obtain ⟨e0, e1, -⟩ := maps_first t
  show V c main_arg0 (((cfg0.win 0).blk t).view.emb (ix2 p k)) = V c main_arg0 (ix2 (rowAt t.val (lt_first t) p) k)
  refine congrArg _ (funext fun ax => Fin.ext ?_)
  match ax with
  | ⟨0, _⟩ => show win0_0.index t (0 : Fin 2) * 512 + 1 * p.val = t.val * 512 + p.val; omega
  | ⟨1, _⟩ => show win0_0.index t (1 : Fin 2) * 4096 + 1 * k.val = k.val; omega

/-- The other four windows hold their whole arrays at every point. -/
theorem whole_w₁ (c : Dev nD) (t : Fin cfg0.N) : (iblk0 V c 1 t : Mat 4096 128) = inW₁ V c := by
  obtain ⟨-, -, e0, e1, -⟩ := maps_first t
  funext y
  show V c main_v0 (((cfg0.win 1).blk t).view.emb y) = V c main_v0 y
  refine congrArg _ (funext fun ax => Fin.ext ?_)
  match ax with
  | ⟨0, _⟩ => show win0_1.index t (0 : Fin 2) * 4096 + 1 * (y 0).val = (y 0).val; omega
  | ⟨1, _⟩ => show win0_1.index t (1 : Fin 2) * 128 + 1 * (y 1).val = (y 1).val; omega

theorem whole_b₁ (c : Dev nD) (t : Fin cfg0.N) : (iblk0 V c 2 t : Row 128) = inB₁ V c := by
  obtain ⟨-, -, -, -, e0, -⟩ := maps_first t
  funext y
  show V c main_arg2 (((cfg0.win 2).blk t).view.emb y) = V c main_arg2 y
  refine congrArg _ (funext fun ax => Fin.ext ?_)
  match ax with
  | ⟨0, _⟩ => show win0_2.index t (0 : Fin 1) * 128 + 1 * (y 0).val = (y 0).val; omega

theorem whole_w₂ (c : Dev nD) (t : Fin cfg0.N) : (iblk0 V c 3 t : Mat 128 512) = inW₂ V c := by
  obtain ⟨-, -, -, -, -, e0, e1, -⟩ := maps_first t
  funext y
  show V c main_v1 (((cfg0.win 3).blk t).view.emb y) = V c main_v1 y
  refine congrArg _ (funext fun ax => Fin.ext ?_)
  match ax with
  | ⟨0, _⟩ => show win0_3.index t (0 : Fin 2) * 128 + 1 * (y 0).val = (y 0).val; omega
  | ⟨1, _⟩ => show win0_3.index t (1 : Fin 2) * 512 + 1 * (y 1).val = (y 1).val; omega

theorem whole_b₂ (c : Dev nD) (t : Fin cfg0.N) : (iblk0 V c 4 t : Row 512) = inB₂ V c := by
  obtain ⟨-, -, -, -, -, -, -, e0, -⟩ := maps_first t
  funext y
  show V c main_arg4 (((cfg0.win 4).blk t).view.emb y) = V c main_arg4 y
  refine congrArg _ (funext fun ax => Fin.ext ?_)
  match ax with
  | ⟨0, _⟩ => show win0_4.index t (0 : Fin 1) * 512 + 1 * (y 0).val = (y 0).val; omega

/-- The body's first store at point `t`, at `(p, q)`, is the whole input's code at row `512 t + p`. -/
theorem stored_code (c : Dev nD) (t : Fin cfg0.N) (p q : Fin 512) :
    k0_pay2 (F := Ideal) (iblk0 V c 0 t) (iblk0 V c 1 t) (iblk0 V c 2 t) (iblk0 V c 3 t) (iblk0 V c 4 t) (ix2 p q)
      = codeOf V c (ix2 (rowAt t.val (lt_first t) p) q) := by
  refine (encoded_apply (iblk0 V c 0 t) (iblk0 V c 1 t) (iblk0 V c 2 t) (iblk0 V c 3 t) (iblk0 V c 4 t) p q).trans ?_
  rw [whole_w₁ V c t, whole_b₁ V c t, whole_w₂ V c t, whole_b₂ V c t]
  exact code_congr _ (inX V c) (inW₁ V c) (inB₁ V c) (inW₂ V c) (inB₂ V c) p (rowAt t.val (lt_first t) p)
    (fun k => rows_apply V c t p k) q

/-- An index of a block of the code array, embedded in the array. -/
theorem emb_code (t : Fin cfg0.N) (p q : Fin 512) :
    ((cfg0.win 5).blk t).view.emb (ix2 p q) = ix2 (rowAt t.val (lt_first t) p) q := by
  obtain ⟨-, -, -, -, -, -, -, -, e0, e1, -⟩ := maps_first t
  refine funext fun ax => Fin.ext ?_
  match ax with
  | ⟨0, _⟩ => show win0_5.index t (0 : Fin 2) * 512 + 1 * p.val = t.val * 512 + p.val; omega
  | ⟨1, _⟩ => show win0_5.index t (1 : Fin 2) * 512 + 1 * q.val = q.val; omega

theorem emb_sums (t : Fin cfg0.N) (p : Fin 512) (l : Fin 32) :
    ((cfg0.win 6).blk t).view.emb (ix2 p l) = ix2 (rowAt t.val (lt_first t) p) l := by
  obtain ⟨-, -, -, -, -, -, -, -, -, -, e0, e1⟩ := maps_first t
  refine funext fun ax => Fin.ext ?_
  match ax with
  | ⟨0, _⟩ => show win0_6.index t (0 : Fin 2) * 512 + 1 * p.val = t.val * 512 + p.val; omega
  | ⟨1, _⟩ => show win0_6.index t (1 : Fin 2) * 32 + 1 * l.val = l.val; omega

/-- What point `t` writes back to the code array is block `t` of the whole input's code. -/
theorem written_code (c : Dev nD) (t : Fin cfg0.N) :
    (dat0 V c).flushed 5 t = ((cfg0.win 5).blk t).view.read (Elt Ideal) (codeOf V c) := by
  show (cfg0.win 5).cut (grid0.coords t) ((dat0 V c).after 5 t) = _
  rw [after0_5]
  unfold out0_5
  rw [View.canon_unit_zero zero_two]
  simp only [View.ld_unit_zero (S := S512x4096) zero_two, View.ld_unit_zero (S := S4096x128) zero_two,
    View.ld_unit_zero (S := S128) zero_one, View.ld_unit_zero (S := S128x512) zero_two,
    View.ld_unit_zero (S := S512) zero_one]
  funext j
  obtain ⟨p, q, rfl⟩ : ∃ (p : Fin 512) (q : Fin 512), j = ix2 p q := ⟨j 0, j 1, eq_ix2 j⟩
  show k0_pay2 (F := Ideal) (iblk0 V c 0 t) (iblk0 V c 1 t) (iblk0 V c 2 t) (iblk0 V c 3 t) (iblk0 V c 4 t) (ix2 p q)
    = codeOf V c (((cfg0.win 5).blk t).view.emb (ix2 p q))
  rw [emb_code t p q]
  exact stored_code V c t p q

/-- What point `t` writes back to the array of sums is block `t` of the sums of the whole input's code. -/
theorem written_sums (c : Dev nD) (t : Fin cfg0.N) :
    (dat0 V c).flushed 6 t = ((cfg0.win 6).blk t).view.read (Elt Ideal) (sumsOf V c) := by
  show (cfg0.win 6).cut (grid0.coords t) ((dat0 V c).after 6 t) = _
  rw [after0_6]
  unfold out0_6
  rw [View.canon_unit_zero zero_two]
  simp only [View.ld_unit_zero (S := S512x4096) zero_two, View.ld_unit_zero (S := S4096x128) zero_two,
    View.ld_unit_zero (S := S128) zero_one, View.ld_unit_zero (S := S128x512) zero_two,
    View.ld_unit_zero (S := S512) zero_one]
  funext j
  obtain ⟨p, l, rfl⟩ : ∃ (p : Fin 512) (l : Fin 32), j = ix2 p l := ⟨j 0, j 1, eq_ix2 j⟩
  show k0_pay1 (F := Ideal)
      (k0_pay2 (iblk0 V c 0 t) (iblk0 V c 1 t) (iblk0 V c 2 t) (iblk0 V c 3 t) (iblk0 V c 4 t))
      (k0_pay3 (iblk0 V c 0 t) (iblk0 V c 1 t) (iblk0 V c 2 t) (iblk0 V c 3 t) (iblk0 V c 4 t))
      (k0_pay4 (iblk0 V c 0 t) (iblk0 V c 1 t) (iblk0 V c 2 t) (iblk0 V c 3 t) (iblk0 V c 4 t)) (ix2 p l)
    = sumsOf V c (((cfg0.win 6).blk t).view.emb (ix2 p l))
  rw [emb_sums t p l]
  refine (summed_apply (iblk0 V c 0 t) (iblk0 V c 1 t) (iblk0 V c 2 t) (iblk0 V c 3 t) (iblk0 V c 4 t) p l).trans ?_
  exact factorSum_congr _ (codeOf V c) p (rowAt t.val (lt_first t) p) (fun q => stored_code V c t p q) l

/-- Membership in a block of the code array and of the array of sums, axis by axis. -/
theorem mem_code (t : Fin cfg0.N) (i : S8192x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v5_0).slice (win0_5.rect t)).set ↔ _
  rw [View.set_slice_whole, Rect.mem_set_unit]
  exact Iff.rfl

theorem mem_sums (t : Fin cfg0.N) (i : S8192x32.Idx) :
    i ∈ ((cfg0.win 6).blk t).view.set ↔ ∀ a : Fin 2, win0_6.index t a * S512x32.size a ≤ (i a).val
      ∧ (i a).val < win0_6.index t a * S512x32.size a + S512x32.size a := by
  show i ∈ ((View.whole main_v5_1).slice (win0_6.rect t)).set ↔ _
  rw [View.set_slice_whole, Rect.mem_set_unit]
  exact Iff.rfl

/-- Row `r` of either array is in block `r / 512`. -/
theorem cover_code (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  let t : Fin cfg0.N := ⟨(i 0).val / 512, by show _ < grid0.N; rw [N_0]; omega⟩
  have ht : t.val = (i 0).val / 512 := rfl
  obtain ⟨-, -, -, -, -, -, -, -, e0, e1, -⟩ := maps_first t
  refine ⟨t, flush0_5 t, ?_⟩
  rw [mem_code]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

theorem cover_sums (i : S8192x32.Idx) :
    ∃ t : Fin cfg0.N, (cfg0.win 6).flush t = true ∧ i ∈ ((cfg0.win 6).blk t).view.set := by
  have hi0 : (i 0).val < 8192 := (i 0).isLt
  have hi1 : (i 1).val < 32 := (i 1).isLt
  let t : Fin cfg0.N := ⟨(i 0).val / 512, by show _ < grid0.N; rw [N_0]; omega⟩
  have ht : t.val = (i 0).val / 512 := rfl
  obtain ⟨-, -, -, -, -, -, -, -, -, -, e0, e1⟩ := maps_first t
  refine ⟨t, flush0_6 t, ?_⟩
  rw [mem_sums]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 32 ≤ (i 1).val ∧ (i 1).val < win0_6.index t (1 : Fin 2) * 32 + 32; omega

/-- After the first region the code array holds the whole input's code, and the array of sums its factors' sums. -/
theorem final_code (c : Dev nD) : (dat0 V c).arrAt 5 cfg0.N = codeOf V c :=
  (dat0 V c).arrAt_eq_of_cover 5 (codeOf V c) (fun t _ => written_code V c t) cover_code

theorem final_sums (c : Dev nD) : (dat0 V c).arrAt 6 cfg0.N = sumsOf V c :=
  (dat0 V c).arrAt_eq_of_cover 6 (sumsOf V c) (fun t _ => written_sums V c t) cover_sums

/-! ## The second region: the sums times the table -/

abbrev inSums (c : Dev nD) : Mat 8192 32 := V c main_v5_1
abbrev inTable (c : Dev nD) : Mat 32 4096 := V c main_v4

/-- The product of the sums with the table, as the second region finds them. -/
def productOf (c : Dev nD) : Mat 8192 4096 := fun i => prodRow (inSums V c) (inTable V c) (i 0) (i 1)

theorem maps_second : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_second (t : Fin cfg1.N) : t.val < 16 := N_1 ▸ t.isLt

theorem sums_rows_apply (c : Dev nD) (t : Fin cfg1.N) (p : Fin 512) (l : Fin 32) :
    (iblk1 V c 0 t : Mat 512 32) (ix2 p l) = inSums V c (ix2 (rowAt t.val (lt_second t) p) l) := by
  obtain ⟨e0, e1, -⟩ := maps_second t
  show V c main_v5_1 (((cfg1.win 0).blk t).view.emb (ix2 p l)) = V c main_v5_1 (ix2 (rowAt t.val (lt_second t) p) l)
  refine congrArg _ (funext fun ax => Fin.ext ?_)
  match ax with
  | ⟨0, _⟩ => show win1_0.index t (0 : Fin 2) * 512 + 1 * p.val = t.val * 512 + p.val; omega
  | ⟨1, _⟩ => show win1_0.index t (1 : Fin 2) * 32 + 1 * l.val = l.val; omega

theorem whole_table (c : Dev nD) (t : Fin cfg1.N) : (iblk1 V c 1 t : Mat 32 4096) = inTable V c := by
  obtain ⟨-, -, e0, e1, -⟩ := maps_second t
  funext y
  show V c main_v4 (((cfg1.win 1).blk t).view.emb y) = V c main_v4 y
  refine congrArg _ (funext fun ax => Fin.ext ?_)
  match ax with
  | ⟨0, _⟩ => show win1_1.index t (0 : Fin 2) * 32 + 1 * (y 0).val = (y 0).val; omega
  | ⟨1, _⟩ => show win1_1.index t (1 : Fin 2) * 4096 + 1 * (y 1).val = (y 1).val; omega

theorem emb_recon (t : Fin cfg1.N) (p : Fin 512) (j : Fin 4096) :
    ((cfg1.win 2).blk t).view.emb (ix2 p j) = ix2 (rowAt t.val (lt_second t) p) j := by
  obtain ⟨-, -, -, -, e0, e1⟩ := maps_second t
  refine funext fun ax => Fin.ext ?_
  match ax with
  | ⟨0, _⟩ => show win1_2.index t (0 : Fin 2) * 512 + 1 * p.val = t.val * 512 + p.val; omega
  | ⟨1, _⟩ => show win1_2.index t (1 : Fin 2) * 4096 + 1 * j.val = j.val; omega

/-- What point `t` writes back to the result array is block `t` of the product. -/
theorem written_recon (c : Dev nD) (t : Fin cfg1.N) :
    (dat1 V c).flushed 2 t = ((cfg1.win 2).blk t).view.read (Elt Ideal) (productOf V c) := by
  show (cfg1.win 2).cut (grid1.coords t) ((dat1 V c).after 2 t) = _
  rw [after1_2]
  unfold out1_2
  rw [View.canon_unit_zero zero_two]
  simp only [View.ld_unit_zero (S := S512x32) zero_two, View.ld_unit_zero (S := S32x4096) zero_two]
  funext j
  obtain ⟨p, q, rfl⟩ : ∃ (p : Fin 512) (q : Fin 4096), j = ix2 p q := ⟨j 0, j 1, eq_ix2 j⟩
  show k1_pay1 (F := Ideal) (iblk1 V c 0 t) (iblk1 V c 1 t) (ix2 p q)
    = productOf V c (((cfg1.win 2).blk t).view.emb (ix2 p q))
  rw [emb_recon t p q]
  refine (rebuilt_apply (iblk1 V c 0 t) (iblk1 V c 1 t) p q).trans ?_
  rw [whole_table V c t]
  exact congrFun (prodRow_congr _ (inSums V c) (inTable V c) p (rowAt t.val (lt_second t) p)
    (fun l => sums_rows_apply V c t p l)) q

theorem mem_recon (t : Fin cfg1.N) (i : S8192x4096.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v6).slice (win1_2.rect t)).set ↔ _
  rw [View.set_slice_whole, Rect.mem_set_unit]
  exact Iff.rfl

theorem cover_recon (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  let t : Fin cfg1.N := ⟨(i 0).val / 512, by show _ < grid1.N; rw [N_1]; omega⟩
  have ht : t.val = (i 0).val / 512 := rfl
  obtain ⟨-, -, -, -, e0, e1⟩ := maps_second t
  refine ⟨t, flush1_2 t, ?_⟩
  rw [mem_recon]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- After the second region the result array holds the product of the sums with the table. -/
theorem final_recon (c : Dev nD) : (dat1 V c).arrAt 2 cfg1.N = productOf V c :=
  (dat1 V c).arrAt_eq_of_cover 2 (productOf V c) (fun t _ => written_recon V c t) cover_recon

end Cert.KernelIdeal.RegionValue

end
-- ==== Proof.KernelValue.lean ====
/-
  The idealized kernel's two results as the autoencoder's plain functions of its argument arrays.

  Before the first region the host narrows the two weight matrices (the identity at the ideal values) and lays the
  decoder stack out as a table: reshaped to `[4096, 32]` — row-major, so row `j` is row `j % 64` of decoder `j / 64` —,
  transposed, narrowed (`entry_table`: the table is `stackTable` of the stack). The first region then leaves the code of
  the input in its first array, which is the first result (`result_code`), and the sums of the code's factors in its
  second, which the second region is entered with together with the table; the second region leaves their product,
  the reconstruction, in the second result (`result_recon`). Neither region nor the host stretch writes an array it
  only reads, so each later reading finds what the earlier stage left.
-/
import proofs.«115263_j44513041056231_1_alg».proof.Proof.KernelRun
import proofs.«115263_j44513041056231_1_alg».proof.Proof.RegionValue
import Idealize.ShloMosaic.Lib.StableHlo.Run
import Idealize.ShloMosaic.Lib.ValueLayout

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Cert.DenseLayer Cert.BiasLayer Cert.FactorCoder Cert.KernelIdeal.RegionValue

variable (m : (ℓ : Loc nD τ sig) → Buf (Elt Ideal) ℓ) (ρ : Dev nD → PrngReg)

/-- The argument arrays as launched, at their literal types. -/
abbrev argX (c : Dev nD) : Mat 8192 4096 := m ((c.tc : Thread nD τ).loc main_arg0)
abbrev argW₁ (c : Dev nD) : Mat 4096 128 := m ((c.tc : Thread nD τ).loc main_arg1)
abbrev argB₁ (c : Dev nD) : Row 128 := m ((c.tc : Thread nD τ).loc main_arg2)
abbrev argW₂ (c : Dev nD) : Mat 128 512 := m ((c.tc : Thread nD τ).loc main_arg3)
abbrev argB₂ (c : Dev nD) : Row 512 := m ((c.tc : Thread nD τ).loc main_arg4)
abbrev argDec (c : Dev nD) : Stack := m ((c.tc : Thread nD τ).loc main_arg5)

/-! ## What the first region is entered with -/

theorem entry_x (c : Dev nD) : (V1 m ρ c main_arg0 : Mat 8192 4096) = argX m c := by
  show StableHlo.after hostOps0 (W0 m ρ c) (Proc.devRef .tc main_arg0) = _
  dsimp only [hostOps0]
  after_results <;> rfl

theorem entry_w₁ (c : Dev nD) : (V1 m ρ c main_v0 : Mat 4096 128) = argW₁ m c := by
  show StableHlo.after hostOps0 (W0 m ρ c) (Proc.devRef .tc main_v0) = _
  dsimp only [hostOps0]
  after_results <;> rfl

theorem entry_b₁ (c : Dev nD) : (V1 m ρ c main_arg2 : Row 128) = argB₁ m c := by
  show StableHlo.after hostOps0 (W0 m ρ c) (Proc.devRef .tc main_arg2) = _
  dsimp only [hostOps0]
  after_results <;> rfl

theorem entry_w₂ (c : Dev nD) : (V1 m ρ c main_v1 : Mat 128 512) = argW₂ m c := by
  show StableHlo.after hostOps0 (W0 m ρ c) (Proc.devRef .tc main_v1) = _
  dsimp only [hostOps0]
  after_results <;> rfl

theorem entry_b₂ (c : Dev nD) : (V1 m ρ c main_arg4 : Row 512) = argB₂ m c := by
  show StableHlo.after hostOps0 (W0 m ρ c) (Proc.devRef .tc main_arg4) = _
  dsimp only [hostOps0]
  after_results <;> rfl

/-- The code of the input as the first region finds it is the code of the arguments. -/
theorem entry_code (c : Dev nD) :
    codeOf (V1 m ρ) c = code (argX m c) (argW₁ m c) (argB₁ m c) (argW₂ m c) (argB₂ m c) := by
  show code (V1 m ρ c main_arg0 : Mat 8192 4096) (V1 m ρ c main_v0 : Mat 4096 128) (V1 m ρ c main_arg2 : Row 128)
    (V1 m ρ c main_v1 : Mat 128 512) (V1 m ρ c main_arg4 : Row 512) = _
  rw [entry_x, entry_w₁, entry_b₁, entry_w₂, entry_b₂]

/-! ## What the second region is entered with -/

/-- The table the host lays out before the regions: the stack reshaped to rows, transposed, narrowed. -/
theorem host_table (c : Dev nD) :
    (W1 m ρ c (Proc.devRef .tc main_v4) : Mat 32 4096)
      = transpose S32x4096 [1, 0] (shapeCast S4096x32 (argDec m c) shapeCasts_S64x64x32_S4096x32)
          transposes_S4096x32_S32x4096_1_0 := by
  show StableHlo.after hostOps0 (W0 m ρ c) (Proc.devRef .tc main_v4) = _
  dsimp only [hostOps0]
  after_results <;> rfl

/-- Column `j` of that table is row `j % 64` of decoder `j / 64`. -/
theorem table_eq (dec : Stack) :
    transpose S32x4096 [1, 0] (shapeCast S4096x32 dec shapeCasts_S64x64x32_S4096x32) transposes_S4096x32_S32x4096_1_0
      = stackTable dec := by
  funext i
  obtain ⟨l, j, rfl⟩ : ∃ (l : Fin 32) (j : Fin 4096), i = ix2 l j := ⟨i 0, i 1, eq_ix2 i⟩
  rw [transpose_ix2_apply, stackTable_apply]
  refine shapeCast_apply dec shapeCasts_S64x64x32_S4096x32 (ix2 j l) (ix3 (group j) (member j) l) ?_
  rw [Shape.rowMajor_val_three, Shape.rowMajor_val_two]
  have hj := j.isLt
  show (j.val / 64 * 64 + j.val % 64) * 32 + l.val = j.val * 32 + l.val
  omega

theorem entry_table (c : Dev nD) : (V2 m ρ c main_v4 : Mat 32 4096) = stackTable (argDec m c) :=
  calc (V2 m ρ c main_v4 : Mat 32 4096)
    _ = W1 m ρ c (Proc.devRef .tc main_v4) := W2_of_ne m ρ c main_v4 (by decide)
    _ = _ := host_table m ρ c
    _ = stackTable (argDec m c) := table_eq (argDec m c)

theorem entry_sums (c : Dev nD) :
    (V2 m ρ c main_v5_1 : Mat 8192 32)
      = factorSum (code (argX m c) (argW₁ m c) (argB₁ m c) (argW₂ m c) (argB₂ m c)) :=
  calc (V2 m ρ c main_v5_1 : Mat 8192 32)
    _ = (dat0 (V1 m ρ) c).arrAt 6 cfg0.N := W2_arr m ρ c 6
    _ = sumsOf (V1 m ρ) c := final_sums (V1 m ρ) c
    _ = _ := congrArg factorSum (entry_code m ρ c)

/-! ## The two results -/

/-- The first result is the code of the input. -/
theorem result_code (c : Dev nD) :
    (W3 m ρ c (Proc.devRef .tc main_v5_0) : Mat 8192 512)
      = code (argX m c) (argW₁ m c) (argB₁ m c) (argW₂ m c) (argB₂ m c) :=
  calc (W3 m ρ c (Proc.devRef .tc main_v5_0) : Mat 8192 512)
    _ = W2 m ρ c (Proc.devRef .tc main_v5_0) := W3_of_ne m ρ c main_v5_0 (by decide)
    _ = (dat0 (V1 m ρ) c).arrAt 5 cfg0.N := W2_arr m ρ c 5
    _ = codeOf (V1 m ρ) c := final_code (V1 m ρ) c
    _ = _ := entry_code m ρ c

/-- The second result is the reconstruction from the code's summed factors. -/
theorem result_recon (c : Dev nD) :
    (W3 m ρ c (Proc.devRef .tc main_v6) : Mat 8192 4096)
      = reconOf (argX m c) (argW₁ m c) (argB₁ m c) (argW₂ m c) (argB₂ m c) (argDec m c) :=
  calc (W3 m ρ c (Proc.devRef .tc main_v6) : Mat 8192 4096)
    _ = (dat1 (V2 m ρ) c).arrAt 2 cfg1.N := W3_arr m ρ c 2
    _ = productOf (V2 m ρ) c := final_recon (V2 m ρ) c
    _ = _ := by
      show ((fun i => prodRow (V2 m ρ c main_v5_1 : Mat 8192 32) (V2 m ρ c main_v4 : Mat 32 4096) (i 0) (i 1)) : Mat 8192 4096) = _
      rw [entry_sums, entry_table]
      rfl

/-- The run of the idealized kernel with its two results at those functions of the arguments. -/
theorem run : θ_run defs (onTc (τ := τ) (main (F := Ideal))) ⟨m, fun _ => 0, ρ⟩ (fun r => ∀ c : Dev nD,
      r.2.mem ((c.tc : Thread nD τ).loc main_v5_0) = code (argX m c) (argW₁ m c) (argB₁ m c) (argW₂ m c) (argB₂ m c)
      ∧ r.2.mem ((c.tc : Thread nD τ).loc main_v6)
          = reconOf (argX m c) (argW₁ m c) (argB₁ m c) (argW₂ m c) (argB₂ m c) (argDec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_code m ρ c), (h c).2.1.trans (result_recon m ρ c), (h c).2.2⟩)
    (Cert.KernelIdeal.RunNamed.run_named (F := Ideal) m ρ)

end Cert.KernelIdeal.KernelValue

end
-- ==== Proof.RefValue.lean ====
/-
  The reference's two results, read at an index at the ideal values, are the autoencoder's plain functions of the
  argument arrays.

  Its first result is the latent code: two host products with their biases laid over the rows, the maximum against a
  splat of zero in between (`ref_code`). Its second result reshapes the code to `[8192, 16, 32]`, sums the middle axis
  from zero, multiplies the sums with the decoder stack over the latent axis into `[8192, 64, 64]` and reshapes that to
  `[8192, 4096]`. Read backwards through the two reshapes — row-major, so entry `(r, n, l)` of the first is the code at
  `(r, 32 n + l)` and entry `(r, j)` of the last is the product at `(r, j / 64, j % 64)` — it is the reconstruction from
  the summed factors (`ref_recon`).
-/
import proofs.«115263_j44513041056231_1_alg».proof.Proof.Gen.ReferenceIdeal.Read
import proofs.«115263_j44513041056231_1_alg».proof.Proof.FactorCoder
import proofs.«115263_j44513041056231_1_alg».proof.Proof.LibPlainDot

noncomputable section

namespace Cert.ReferenceIdeal.RefValue

open Cert.ReferenceIdeal Cert.ReferenceIdeal.Gen Cert.ReferenceIdeal.Read Idealize.ShloMosaic Idealize.ShloMosaic.ValueIdx
open Cert.DenseLayer Cert.BiasLayer Cert.FactorCoder

theorem plain_first : PlainDot dot_S8192x4096_S4096x128_S8192x128_1_0_0_1_n_n := plainDot_of_axes _ rfl rfl rfl rfl rfl rfl
theorem plain_second : PlainDot dot_S8192x128_S128x512_S8192x512_1_0_0_1_n_n := plainDot_of_axes _ rfl rfl rfl rfl rfl rfl

variable (x : (⟨S8192x4096, .f32⟩ : BufTy).Contents (Elt Ideal)) (w₁ : (⟨S4096x128, .f32⟩ : BufTy).Contents (Elt Ideal))
  (b₁ : (⟨S128, .f32⟩ : BufTy).Contents (Elt Ideal)) (w₂ : (⟨S128x512, .f32⟩ : BufTy).Contents (Elt Ideal))
  (b₂ : (⟨S512, .f32⟩ : BufTy).Contents (Elt Ideal)) (dec : (⟨S64x64x32, .f32⟩ : BufTy).Contents (Elt Ideal))

/-- The first result is the latent code of the whole input. -/
theorem ref_code : val_main_v8 (F := Ideal) x w₁ b₁ w₂ b₂ = code x w₁ b₁ w₂ b₂ := by
  funext i
  obtain ⟨r, q, rfl⟩ : ∃ (r : Fin 8192) (q : Fin 512), i = ix2 r q := ⟨i 0, i 1, eq_ix2 i⟩
  unfold val_main_v8 val_main_v5 val_main_v7 val_main_v6 code
  refine (host_affine_apply _ w₂ b₂ plain_second none bcast_S512_S1x512_1 bcast_S1x512_S8192x512_0_1 r q).trans ?_
  refine affine_congr _ _ w₂ b₂ r r (fun k => ?_) q
  unfold val_main_v4 val_main_v3 val_main_v0 val_main_v2 val_main_v1 val_main_call0_v0 val_main_call0_cst
  exact host_reluAffine_apply x w₁ b₁ plain_first none bcast_S128_S1x128_1 bcast_S1x128_S8192x128_0_1 bcast_S_S8192x128 r k

/-- Entry `(r, n, l)` of the code reshaped to 16 factors of 32 is the code at `(r, 32 n + l)`. -/
theorem factor_index (r : Fin 8192) (n : Fin 16) (l : Fin 32) :
    idx_main_v9 (idx_main_v10 (ix2 r l) n) = ix2 r (lane n l) :=
  funext fun ax => Fin.ext (by
    have hr := r.isLt; have hn := n.isLt; have hl := l.isLt
    match ax with
    | ⟨0, _⟩ => show ((r.val * 16 + n.val) * 32 + l.val) / 512 = r.val; omega
    | ⟨1, _⟩ => show ((r.val * 16 + n.val) * 32 + l.val) % 512 = n.val * 32 + l.val; omega)

/-- The host's sum over the factor axis, at `(r, l)`, is the sum of the code's 16 factors at latent `l`. -/
theorem ref_sums_apply (r : Fin 8192) (l : Fin 32) :
    val_main_v10 (F := Ideal) x w₁ b₁ w₂ b₂ (ix2 r l) = factorSum (code x w₁ b₁ w₂ b₂) (ix2 r l) := by
  rw [val_main_v10_apply, factorSum_apply]
  refine congrArg (Ideal.ofBits .f32 0x00000000#32 + ·) (Finset.sum_congr rfl fun n _ => ?_)
  rw [val_main_v9_apply, factor_index, ref_code]

/-- Output column `j` reads the product over the latent axis at decoder `j / 64`, row `j % 64`. -/
theorem sums_index (r : Fin 8192) (j : Fin 4096) (l : Fin 32) :
    lidx_main_v11 (idx_main_v12 (ix2 r j)) l = ix2 r l :=
  funext fun ax => Fin.ext (by
    have hr := r.isLt; have hj := j.isLt
    match ax with
    | ⟨0, _⟩ => show (r.val * 4096 + j.val) / 4096 = r.val; omega
    | ⟨1, _⟩ => rfl)

theorem stack_index (r : Fin 8192) (j : Fin 4096) (l : Fin 32) :
    ridx_main_v11 (idx_main_v12 (ix2 r j)) l = ix3 (group j) (member j) l :=
  funext fun ax => Fin.ext (by
    have hr := r.isLt; have hj := j.isLt
    match ax with
    | ⟨0, _⟩ => show (r.val * 4096 + j.val) / 64 % 64 = j.val / 64; omega
    | ⟨1, _⟩ => show (r.val * 4096 + j.val) % 64 = j.val % 64; omega
    | ⟨2, _⟩ => rfl)

/-- The second result is the reconstruction from the code's summed factors. -/
theorem ref_recon : val_main_v12 (F := Ideal) x w₁ b₁ w₂ b₂ dec = reconOf x w₁ b₁ w₂ b₂ dec := by
  funext i
  obtain ⟨r, j, rfl⟩ : ∃ (r : Fin 8192) (j : Fin 4096), i = ix2 r j := ⟨i 0, i 1, eq_ix2 i⟩
  rw [val_main_v12_apply, val_main_v11_apply]
  show _ = ∑ l : Fin 32, factorSum (code x w₁ b₁ w₂ b₂) (ix2 r l) * dec (ix3 (group j) (member j) l)
  refine Finset.sum_congr rfl fun l _ => ?_
  rw [sums_index, stack_index, ref_sums_apply]

end Cert.ReferenceIdeal.RefValue

end
-- ==== Proof.lean ====
/-
  The certificate of a factorised autoencoder written as two pipelined kernels against its plain reference.

  Both programs compute, from an input `x` of 8192 rows, the latent code `max (x · w₁ + b₁) 0 · w₂ + b₂` (512 columns: 16
  factors of 32 latents) and a reconstruction of 4096 columns from the factors' sum: column `j` is the product of the
  summed latents with row `j % 64` of decoder `j / 64` of a stack of 64 decoders. The kernel works on blocks of 512 rows,
  narrows its operands to bf16 before each product (the identity at the ideal values), adds the 16 factors one after
  another onto a zero block, and multiplies the sums once with the whole stack laid out as a table of 32 rows; the
  reference multiplies whole matrices, sums the factors by one reduction from zero and contracts against the stack as
  it stands. At the ideal values both are the same sums of the same products in the same order, so nothing is asked of
  the inputs' finiteness: the precondition is never opened.

  The three frames are the generated ones (the reference's is its generated run with the results dropped); the
  idealization rewrote nothing, so `preserves` is trivial; `algebraic` sets the kernel's run, its two result arrays read
  as `code` and `reconOf` of the arguments, beside the reference's run read as the same two functions.
-/
import proofs.«115263_j44513041056231_1_alg».proof.Defs
import proofs.«115263_j44513041056231_1_alg».proof.Proof.Gen.Kernel
import proofs.«115263_j44513041056231_1_alg».proof.Proof.Gen.Kernel.Skeleton
import proofs.«115263_j44513041056231_1_alg».proof.Proof.Gen.Kernel.Launch
import proofs.«115263_j44513041056231_1_alg».proof.Proof.Gen.Kernel.Points
import proofs.«115263_j44513041056231_1_alg».proof.Proof.Gen.Kernel.Frame
import proofs.«115263_j44513041056231_1_alg».proof.Proof.Gen.KernelIdeal
import proofs.«115263_j44513041056231_1_alg».proof.Proof.Gen.KernelIdeal.Skeleton
import proofs.«115263_j44513041056231_1_alg».proof.Proof.Gen.KernelIdeal.Launch
import proofs.«115263_j44513041056231_1_alg».proof.Proof.Gen.KernelIdeal.Points
import proofs.«115263_j44513041056231_1_alg».proof.Proof.Gen.KernelIdeal.Frame
import proofs.«115263_j44513041056231_1_alg».proof.Proof.Gen.ReferenceIdeal
import proofs.«115263_j44513041056231_1_alg».proof.Proof.Gen.Pre_finite_inputs
import proofs.«115263_j44513041056231_1_alg».proof.Proof.Gen.ReferenceIdeal.Run
import proofs.«115263_j44513041056231_1_alg».proof.Proof.Gen.ReferenceIdeal.Read
import proofs.«115263_j44513041056231_1_alg».proof.Proof.KernelValue
import proofs.«115263_j44513041056231_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments the kernel's two results are the code and the reconstruction of the
    kernel's arguments, the reference's those of the reference's, which are the same arrays. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v8_eq, Cert.ReferenceIdeal.RefValue.ref_code,
      (hagree c).1, (hagree c).2.1, (hagree c).2.2.1, (hagree c).2.2.2.1, (hagree c).2.2.2.2.1]
  · rw [Cert.ReferenceIdeal.Read.val_main_v12_eq, Cert.ReferenceIdeal.RefValue.ref_recon,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
